-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Quantize.lean ====
/-
  The quantized linear layer over the extended reals, and the one law of sums the certificate needs.

  `rq v = round(v · 2⁸) / 2⁸` rounds an extended real to the nearest multiple of 2⁻⁸, ties to even (the infinities are
  fixed points of the rounding). The layer is, entry by entry,

      out[i, j] = rq ( rq (∑ₖ X[i, k] · W[k, j]) + rq (B[j]) ),      k ranging over all 4096 contraction indices.

  The kernel forms the inner sum in four consecutive runs of 1024 indices, each run's partial sum added to an
  accumulator that starts at zero; the reference forms it in one piece. Addition of extended reals is commutative and
  associative, so a sum over 4096 indices IS the sum of its four consecutive quarter sums (`sum_quarters`): no
  finiteness of the entries is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.QuantLinear

open Idealize.ShloMosaic Idealize.ShloMosaic.ValueIdx

/-- The scale 2⁸ = 256, as the extended real its single-precision word denotes. -/
abbrev scale : EReal := Ideal.ofBits .f32 0x43800000#32

/-- Rounding to the nearest multiple of 2⁻⁸, ties to even: `round(v · 256) / 256`. -/
def rq (v : EReal) : EReal := Ideal.div (Ideal.liftRound Ideal.roundHalfEven (v * scale)) scale

/-- The quantized linear layer: the quantized matrix product plus the quantized bias, quantized once more. -/
def layer (X W : (⟨2, ![4096, 4096]⟩ : Shape).Idx → EReal) (B : (⟨1, ![4096]⟩ : Shape).Idx → EReal) :
    (⟨2, ![4096, 4096]⟩ : Shape).Idx → EReal :=
  fun i => rq (rq (∑ k : Fin 4096, X (ix2 (i 0) k) * W (ix2 k (i 1))) + rq (B (ix1 (i 1))))

/-- Offset `r` inside tile number `b mod 4` of an axis of extent 4096 = 4 · 1024: the index `1024 · (b mod 4) + r`. Taking
    the tile number modulo 4 makes this a function of every natural number, so that a grid point's number can be fed
    to it without a bound. -/
def tileIdx (b : ℕ) (r : Fin 1024) : Fin 4096 :=
  ⟨1024 * (b % 4) + r.val, by have := r.isLt; have := Nat.mod_lt b (by decide : 0 < 4); omega⟩

theorem tileIdx_val (b : ℕ) (r : Fin 1024) : (tileIdx b r).val = 1024 * (b % 4) + r.val := rfl

/-- Two tile numbers that agree modulo 4 give the same index. -/
theorem tileIdx_congr {b b' : ℕ} (h : b % 4 = b' % 4) (r : Fin 1024) : tileIdx b r = tileIdx b' r :=
  Fin.ext (by rw [tileIdx_val, tileIdx_val, h])

/-- A sum over 4096 indices is the sum of its four consecutive quarter sums: index `k` is `1024 · s + r` for exactly one
    quarter `s < 4` and one offset `r < 1024`. The quarters are given as a function `g` of a natural number, which is how
    the kernel's grid points enumerate them. -/
theorem sum_quarters {β : Type*} [AddCommMonoid β] (f : Fin 4096 → β) (g : ℕ → β)
    (hg : ∀ (s : ℕ) (hs : s < 4), g s = ∑ r : Fin 1024, f (tileIdx s r)) :
    ∑ s ∈ Finset.range 4, g s = ∑ k : Fin 4096, f k := by
  rw [Finset.sum_range]
  have e : ∑ k : Fin 4096, f k = ∑ x : Fin 4 × Fin 1024, f (finProdFinEquiv x) :=
    (Equiv.sum_comp (finProdFinEquiv : Fin 4 × Fin 1024 ≃ Fin 4096) f).symm
  rw [e, Fintype.sum_prod_type]
  refine Finset.sum_congr rfl fun s _ => ?_
  rw [hg s.val s.isLt]
  refine Finset.sum_congr rfl fun r _ => ?_
  refine congrArg f (Fin.ext ?_)
  show 1024 * (s.val % 4) + r.val = r.val + 1024 * s.val
  have := s.isLt
  omega

end Cert.QuantLinear

end
-- ==== Proof.Tile.lean ====
/-
  The kernel body's two arithmetic steps, read at one entry of a 1024 × 1024 tile, over the extended reals.

  * The accumulation step adds to the accumulator tile the product of the current tile of `inputs` with the current
    tile of `w`: entry `(p, q)` becomes `acc[p, q] + ∑ᵣ x[p, r] · w[r, q]`, `r` over the 1024 contraction indices of the
    tile. (The narrowing of the operands to bfloat16 is the identity on extended reals, and the product is taken into
    a zero tile.)
  * The closing step quantizes the accumulator, adds the quantized bias row, and quantizes the sum:
    entry `(p, q)` becomes `rq (rq acc[p, q] + rq b[0, q])`.
-/
import proofs.«181331_j2224793060101_1_alg».proof.Proof.Gen.KernelIdeal.Skeleton
import proofs.«181331_j2224793060101_1_alg».proof.Proof.Quantize
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.QuantLinear

/-! ## The tile product's operand indices: row `p`, contraction index `r`, column `q` -/

theorem lhs_axis0 (i : S1024x1024.Idx) (r : dot_S1024x1024_S1024x1024_S1024x1024_1_0_0_1_n_n.contr.Idx) :
    (dot_S1024x1024_S1024x1024_S1024x1024_1_0_0_1_n_n.lhsIdx i r 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (r : dot_S1024x1024_S1024x1024_S1024x1024_1_0_0_1_n_n.contr.Idx) :
    (dot_S1024x1024_S1024x1024_S1024x1024_1_0_0_1_n_n.lhsIdx i r 1).val = (r ⟨0, by decide⟩).val :=
  dot_S1024x1024_S1024x1024_S1024x1024_1_0_0_1_n_n.lhsIdx_val_of_single rfl i r
theorem rhs_axis0 (i : S1024x1024.Idx) (r : dot_S1024x1024_S1024x1024_S1024x1024_1_0_0_1_n_n.contr.Idx) :
    (dot_S1024x1024_S1024x1024_S1024x1024_1_0_0_1_n_n.rhsIdx i r 0).val = (r ⟨0, by decide⟩).val :=
  dot_S1024x1024_S1024x1024_S1024x1024_1_0_0_1_n_n.rhsIdx_val_of_single rfl i r
theorem rhs_axis1 (i : S1024x1024.Idx) (r : dot_S1024x1024_S1024x1024_S1024x1024_1_0_0_1_n_n.contr.Idx) :
    (dot_S1024x1024_S1024x1024_S1024x1024_1_0_0_1_n_n.rhsIdx i r 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two tiles into a zero tile, at entry `(p, q)`: the row of the left tile against the column of the
    right one. -/
theorem tileProduct_apply (x w : FVec Ideal S1024x1024 .bf16) (p q : Fin 1024) :
    matmul dot_S1024x1024_S1024x1024_S1024x1024_1_0_0_1_n_n none x w (constant S1024x1024 .f32 0x00000000#32) (ix2 p q)
      = ∑ r : Fin 1024, x (ix2 p r) * w (ix2 r q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun r _ => ?_
  have hr := ValueIdx.contrEquiv1_symm_val dot_S1024x1024_S1024x1024_S1024x1024_1_0_0_1_n_n 1024 rfl rfl r
  have el : dot_S1024x1024_S1024x1024_S1024x1024_1_0_0_1_n_n.lhsIdx (ix2 p q) ((ValueIdx.contrEquiv1 dot_S1024x1024_S1024x1024_S1024x1024_1_0_0_1_n_n 1024 rfl rfl).symm r) = ix2 p r := funext fun a => Fin.ext (by
    match a with
    | ⟨0, _⟩ => exact lhs_axis0 _ _
    | ⟨1, _⟩ => exact (lhs_axis1 _ _).trans hr)
  have er : dot_S1024x1024_S1024x1024_S1024x1024_1_0_0_1_n_n.rhsIdx (ix2 p q) ((ValueIdx.contrEquiv1 dot_S1024x1024_S1024x1024_S1024x1024_1_0_0_1_n_n 1024 rfl rfl).symm r) = ix2 r q := funext fun a => Fin.ext (by
    match a with
    | ⟨0, _⟩ => exact (rhs_axis0 _ _).trans hr
    | ⟨1, _⟩ => exact rhs_axis1 _ _)
  rw [el, er]

/-- THE ACCUMULATION STEP at entry `(p, q)`: the accumulator's entry plus the row–column product of the two tiles. -/
theorem accumulate_apply (x w acc : Vec Ideal S1024x1024 .f32) (p q : Fin 1024) :
    k0_pay2 (F := Ideal) x w acc (ix2 p q) = acc (ix2 p q) + ∑ r : Fin 1024, x (ix2 p r) * w (ix2 r q) := by
  unfold k0_pay2
  simp only [shapeCast_self]
  rw [addf_apply, tileProduct_apply]
  rfl

/-- Rounding a tile to integers, ties to even, acts entry by entry. -/
theorem roundeven_apply {s : Shape} {φ : FTy} (a : FVec Ideal s φ) (i : s.Idx) :
    roundeven a i = Ideal.liftRound Ideal.roundHalfEven (a i) := rfl

/-- THE CLOSING STEP at entry `(p, q)`: quantize the accumulated product, add the quantized bias of column `q`, quantize. -/
theorem close_apply (acc : Vec Ideal S1024x1024 .f32) (b : Vec Ideal S1x1024 .f32) (p q : Fin 1024) :
    k0_pay3 (F := Ideal) acc b (ix2 p q) = rq (rq (acc (ix2 p q)) + rq (b (ix2 (0 : Fin 1) q))) := by
  unfold k0_pay3
  simp only [shapeCast_self, divf_apply, mulf_apply, addf_apply, roundeven_apply, broadcast_apply]
  rw [ValueIdx.broadcastTo_1b_ab_apply]
  simp only [divf_apply, mulf_apply, roundeven_apply, broadcast_apply]
  rfl

end Cert.KernelIdeal.Tile

end
-- ==== Proof.Cases.lean ====
/-
  What one run of the kernel body leaves behind, in each of its three control cases, as a value.

  The grid's last axis `k` walks the four contraction tiles of one output tile. The body keeps a 1024 × 1024
  accumulator in scratch memory across those four steps:
    * at the first step (`k = 0`) it stores the zero tile into the accumulator, reads it back, and stores the
      accumulation step of the two input tiles over it: the accumulator ends at `accumulate x w 0`;
    * at a middle step (`k = 1, 2`) it stores the accumulation step over what the accumulator held;
    * at the last step (`k = 3`) it does the same, then reads the accumulator back and stores the closing step of it
      and of the bias tile into the output tile.
  Each store covers its whole buffer, so what a buffer holds afterwards is the last store's payload, with every load
  of a whole buffer read as that buffer's contents.
-/
import proofs.«181331_j2224793060101_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- FIRST STEP of a run of four: the accumulator ends at the accumulation step over the zero tile. -/
theorem scratch_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- MIDDLE STEP: the accumulator ends at the accumulation step over what it held. -/
theorem scratch_next (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .f32) (x2 : Vec F S1x1024 .f32) (acc : Vec F S1024x1024 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero origin]
  simp only [View.readAt_eq_ld, h3.read_unread, h4.read_unread, h7.read_unread, View.ld_unit_zero (S := S1024x1024) origin]

/-- LAST STEP, the accumulator: as at a middle step. -/
theorem scratch_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (acc : Vec F S1024x1024 .f32) :
    sout0_C_0 c i a3 h3 a4 h4 a5 h5 a6 h6 a7 h7 hc0 hc1 x0 x1 x2 acc = k0_pay2 x0 x1 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h7.read_unread, View.ld_unit_zero (S := S1024x1024) origin]

/-- LAST STEP, the output tile: the closing step of the accumulator JUST UPDATED and of the bias tile. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (acc : Vec F S1024x1024 .f32) :
    out0_C_3 c i a3 h3 a4 h4 a5 h5 a6 h6 a7 h7 hc0 hc1 x0 x1 x2 acc = k0_pay3 (k0_pay2 x0 x1 acc) x2 := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero origin]
  simp only [View.readAt_eq_ld, h3.read_unread, h4.read_unread, h5.read_unread, h7.read_unread,
    View.readCov_unit_zero (S := S1024x1024) _ origin, View.ld_unit_zero (S := S1024x1024) origin,
    View.ld_unit_zero (S := S1x1024) origin]

end Cert.KernelIdeal.Cases

end
-- ==== Proof.Blocks.lean ====
/-
  Which entries of the whole arrays a grid point's tiles hold.

  The grid has 4 × 4 × 4 = 64 points, numbered `t = 16·i + 4·j + k`: `i` the output's row tile, `j` its column tile,
  `k` the contraction tile (the fastest axis). At point `t`
    * the tile of `inputs` is rows of tile `i = t / 16`, columns of tile `k = t mod 4`;
    * the tile of `w` is rows of tile `k`, columns of tile `j = (t / 4) mod 4`;
    * the tile of the bias row (the bias reshaped to one row of 4096) is columns of tile `j`;
    * the output tile is rows of tile `i`, columns of tile `j`.
  A tile's entry `(p, r)` is the array's entry `(1024·tile + p, 1024·tile' + r)`.
-/
import proofs.«181331_j2224793060101_1_alg».proof.Proof.Gen.KernelIdeal.Frame
import proofs.«181331_j2224793060101_1_alg».proof.Proof.Quantize
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem

namespace Cert.KernelIdeal.Blocks

open Cert.KernelIdeal Cert.KernelIdeal.Gen Idealize.ShloMosaic.ValueIdx Cert.QuantLinear

variable {F : FTy → Type} [FloatOps F]
variable (m : (ℓ : Loc nD τ sig) → Buf (Elt F) ℓ)

/-- The tiles the body is handed at point `t`, -/
abbrev xblk (c : Dev nD) (t : Fin cfg0.N) : Vec F S1024x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t
/-- and the whole arrays they are tiles of, as the kernel region finds them. -/
abbrev xarr (c : Dev nD) : Vec F S4096x4096 .f32 := V m c main_arg0
abbrev warr (c : Dev nD) : Vec F S4096x4096 .f32 := V m c main_arg1
abbrev brow (c : Dev nD) : Vec F S1x4096 .f32 := V m c main_v0

theorem xarr_eq (c : Dev nD) : xarr m c = m ((c : Thread nD τ).loc main_arg0) := V_main_arg0 m c
theorem warr_eq (c : Dev nD) : warr m c = m ((c : Thread nD τ).loc main_arg1) := V_main_arg1 m c

/-- The printed index maps, decided once over the 64 points: the tile numbers above. -/
theorem tile_numbers : ∀ t : Fin cfg0.N,
    win0_0.index t (0 : Fin 2) = t.val / 16 % 4 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 % 4 ∧ win0_3.index t (1 : Fin 2) = t.val / 4 % 4 :=
  (by decide +kernel : ∀ t : Fin grid0.N, _)

/-- The tile of `inputs` at point `t`: row tile `t / 16`, column tile `t mod 4`. -/
theorem xblk_apply (c : Dev nD) (t : Fin cfg0.N) (p r : Fin 1024) :
    xblk m c t (ix2 p r) = xarr m c (ix2 (tileIdx (t.val / 16) p) (tileIdx t.val r)) := by
  obtain ⟨e0, e1, -⟩ := tile_numbers t
  unfold xblk xarr iblk
  rw [View.read_apply]
  show V m c main_arg0 _ = V m c main_arg0 _
  congr 1
  funext a
  apply Fin.ext
  match a with
  | ⟨0, _⟩ => show win0_0.index t (0 : Fin 2) * 1024 + 1 * p.val = 1024 * (t.val / 16 % 4) + p.val; rw [e0]; omega
  | ⟨1, _⟩ => show win0_0.index t (1 : Fin 2) * 1024 + 1 * r.val = 1024 * (t.val % 4) + r.val; rw [e1]; omega

/-- The tile of `w` at point `t`: row tile `t mod 4`, column tile `(t / 4) mod 4`. -/
theorem wblk_apply (c : Dev nD) (t : Fin cfg0.N) (r q : Fin 1024) :
    wblk m c t (ix2 r q) = warr m c (ix2 (tileIdx t.val r) (tileIdx (t.val / 4) q)) := by
  obtain ⟨-, -, e0, e1, -⟩ := tile_numbers t
  unfold wblk warr iblk
  rw [View.read_apply]
  show V m c main_arg1 _ = V m c main_arg1 _
  congr 1
  funext a
  apply Fin.ext
  match a with
  | ⟨0, _⟩ => show win0_1.index t (0 : Fin 2) * 1024 + 1 * r.val = 1024 * (t.val % 4) + r.val; rw [e0]; omega
  | ⟨1, _⟩ => show win0_1.index t (1 : Fin 2) * 1024 + 1 * q.val = 1024 * (t.val / 4 % 4) + q.val; rw [e1]; omega

/-- The tile of the bias row at point `t`: column tile `(t / 4) mod 4` of its one row. -/
theorem bblk_apply (c : Dev nD) (t : Fin cfg0.N) (q : Fin 1024) :
    bblk m c t (ix2 (0 : Fin 1) q) = brow m c (ix2 (0 : Fin 1) (tileIdx (t.val / 4) q)) := by
  obtain ⟨-, -, -, -, e0, e1, -⟩ := tile_numbers t
  unfold bblk brow iblk
  rw [View.read_apply]
  show V m c main_v0 _ = V m c main_v0 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = 1024 * (t.val / 4 % 4) + q.val; rw [e1]; omega

/-- The bias row is the bias itself laid out as one row: the host reshapes `b` from [4096] to [1, 4096] before the
    kernel region, and entry `(0, j)` of the row is entry `j` of `b`. -/
theorem brow_apply (c : Dev nD) (u : Fin 1) (j : Fin 4096) :
    brow m c (ix2 u j) = m ((c : Thread nD τ).loc main_arg2) (ix1 j) := by
  have e : (V m c main_v0 : S1x4096.Idx → Elt F .f32)
      = shapeCast S1x4096 (m ((c : Thread nD τ).loc main_arg2)) shapeCasts_S4096_S1x4096 := by
    dsimp only [Gen.V, Gen.hostOps0]; after_results; rfl
  show V m c main_v0 (ix2 u j) = _
  rw [e]
  exact ValueIdx.shapeCast_a_1a_apply _ _ u j

end Cert.KernelIdeal.Blocks

end
-- ==== Proof.Accumulator.lean ====
/-
  The accumulator after every grid point, and the output tile the last point of a run of four writes.

  Along the contraction axis the kernel visits four tiles of one output tile in a row — points `4·u, 4·u + 1,
  4·u + 2, 4·u + 3`. At the first the accumulator is reset to `0 + (first tile product)`; each later point adds its own
  tile product. So after point `4·u + s` the accumulator's entry `(p, q)` is `0` plus the sum of the tile products of
  points `4·u … 4·u + s` at `(p, q)`; after the fourth point that is the full sum over all 4096 contraction indices of
  `inputs[row, ·] · w[·, column]`, because the four points' tiles are the four consecutive quarters of that row and
  column (the law of sums in the specification module). The fourth point then writes
  `rq (rq (that sum) + rq (bias[column]))` into the output tile: the layer's entry.
-/
import proofs.«181331_j2224793060101_1_alg».proof.Proof.Gen.KernelIdeal.Value
import proofs.«181331_j2224793060101_1_alg».proof.Proof.Quantize
import proofs.«181331_j2224793060101_1_alg».proof.Proof.Tile
import proofs.«181331_j2224793060101_1_alg».proof.Proof.Cases
import proofs.«181331_j2224793060101_1_alg».proof.Proof.Blocks
import Idealize.ShloMosaic.Lib.Pipeline.Value
import Idealize.ShloMosaic.Lib.ValueIdx

noncomputable section

open Idealize.ShloMosaic Idealize.ShloMosaic.TcCoe Idealize.SL.Sem

namespace Cert.KernelIdeal.Accumulator

open Cert.KernelIdeal Cert.KernelIdeal.Gen Cert.KernelIdeal.Value Idealize.ShloMosaic.ValueIdx Cert.QuantLinear
open Cert.KernelIdeal.Blocks Cert.KernelIdeal.Cases Cert.KernelIdeal.Tile

variable (m : (ℓ : Loc nD τ sig) → Buf (Elt Ideal) ℓ)

/-- The tile product point `n` adds to the accumulator, at entry `y` (zero for a number past the grid's 64 points, so that
    it is a function of every natural number). -/
def tileProduct (c : Dev nD) (n : ℕ) (y : S1024x1024.Idx) : EReal :=
  if h : n < cfg0.N then ∑ r : Fin 1024, xblk m c ⟨n, h⟩ (ix2 (y 0) r) * wblk m c ⟨n, h⟩ (ix2 r (y 1)) else 0

/-- At the first point of a run the accumulator is reset: whatever it held, it ends at `0 +` the point's tile product. -/
theorem step_first (c : Dev nD) (n : ℕ) (hb : n < cfg0.N) (h0 : n % 4 = 0) (acc : Vec Ideal S1024x1024 .f32)
    (y : S1024x1024.Idx) : scAt0_0 m c n hb acc y = 0 + tileProduct m c n y := by
  have h1 : ¬n % 4 = 3 := by omega
  unfold scAt0_0
  rw [dif_pos h0, dif_neg h1]
  refine (congrFun (scratch_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) ((hcond0_0 (⟨n, hb⟩ : Fin cfg0.N)).mpr h0) (fun h => h1 ((hcond0_1 (⟨n, hb⟩ : Fin cfg0.N)).mp h)) (iblk m c 0 ⟨n, hb⟩) (iblk m c 1 ⟨n, hb⟩) (iblk m c 2 ⟨n, hb⟩)) y).trans ?_
  obtain ⟨p, q, rfl⟩ : ∃ (p q : Fin 1024), y = ix2 p q := ⟨y 0, y 1, eq_ix2 y⟩
  refine (accumulate_apply (iblk m c 0 ⟨n, hb⟩) (iblk m c 1 ⟨n, hb⟩) (k0_pay1 (F := Ideal)) p q).trans ?_
  unfold tileProduct
  rw [dif_pos hb]
  refine congrArg (· + _) ?_
  show Ideal.ofBits .f32 0x00000000#32 = 0
  exact Ideal.ofBits_zero_f32

/-- At every other point it grows by the point's tile product. -/
theorem step_next (c : Dev nD) (n : ℕ) (hb : n < cfg0.N) (h0 : ¬n % 4 = 0) (acc : Vec Ideal S1024x1024 .f32)
    (y : S1024x1024.Idx) : scAt0_0 m c n hb acc y = acc y + tileProduct m c n y := by
  obtain ⟨p, q, rfl⟩ : ∃ (p q : Fin 1024), y = ix2 p q := ⟨y 0, y 1, eq_ix2 y⟩
  unfold scAt0_0
  rw [dif_neg h0]
  by_cases h1 : n % 4 = 3
  · rw [dif_pos h1]
    refine (congrFun (scratch_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 (⟨n, hb⟩ : Fin cfg0.N)).mp h)) ((hcond0_1 (⟨n, hb⟩ : Fin cfg0.N)).mpr h1) (iblk m c 0 ⟨n, hb⟩) (iblk m c 1 ⟨n, hb⟩) (iblk m c 2 ⟨n, hb⟩) acc) (ix2 p q)).trans ?_
    refine (accumulate_apply (iblk m c 0 ⟨n, hb⟩) (iblk m c 1 ⟨n, hb⟩) acc p q).trans ?_
    unfold tileProduct
    rw [dif_pos hb]
  · rw [dif_neg h1]
    refine (congrFun (scratch_next (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 (⟨n, hb⟩ : Fin cfg0.N)).mp h)) (fun h => h1 ((hcond0_1 (⟨n, hb⟩ : Fin cfg0.N)).mp h)) (iblk m c 0 ⟨n, hb⟩) (iblk m c 1 ⟨n, hb⟩) (iblk m c 2 ⟨n, hb⟩) acc) (ix2 p q)).trans ?_
    refine (accumulate_apply (iblk m c 0 ⟨n, hb⟩) (iblk m c 1 ⟨n, hb⟩) acc p q).trans ?_
    unfold tileProduct
    rw [dif_pos hb]

/-- THE ACCUMULATOR after point `t`: zero plus the tile products of the run's points up to `t`. -/
theorem accumulator_eq (c : Dev nD) (t : Fin cfg0.N) (y : S1024x1024.Idx) :
    (outsAt0 m c t.val t.isLt).2 y
      = 0 + ∑ s ∈ Finset.range (t.val % 4 + 1), tileProduct m c (4 * (t.val / 4) + s) y := by
  rw [soutsAt0_0_eq]
  exact Pipeline.accAt_add_apply (fun n h => scAt0_0 m c n h (VS0_0.read (Elt Ideal) VS0_0.junk)) (scAt0_0 m c)
    (fun _ => 0) (tileProduct m c) (4 * (t.val / 4)) 3
    (fun h i => step_first m c _ h (by omega) _ i)
    (fun n h acc i hlt hle => step_next m c n h (by omega) acc i)
    (t.val % 4) (by omega) _ y

end Cert.KernelIdeal.Accumulator

end
-- ==== Proof.Result.lean ====
/-
  The kernel's result array is the quantized linear layer of its arguments.

  Only the last point of each run of four (`t mod 4 = 3`) writes its output tile back. By then the accumulator holds the
  full contraction sum for every entry of the tile, so the tile written is the layer restricted to rows of tile
  `t / 16` and columns of tile `(t / 4) mod 4`. Those sixteen tiles cover the 4096 × 4096 result: entry `(i₀, i₁)` lies
  in the tile written at point `16·(i₀ / 1024) + 4·(i₁ / 1024) + 3`.
-/
import proofs.«181331_j2224793060101_1_alg».proof.Proof.Accumulator

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Value Idealize.ShloMosaic.ValueIdx Cert.QuantLinear
open Cert.KernelIdeal.Blocks Cert.KernelIdeal.Cases Cert.KernelIdeal.Tile Cert.KernelIdeal.Accumulator

variable (m : (ℓ : Loc nD τ sig) → Buf (Elt Ideal) ℓ) (ρ : Dev nD → PrngReg)

/-- The layer of the arrays as the kernel region finds them. -/
abbrev out (c : Dev nD) : Vec Ideal S4096x4096 .f32 :=
  layer (xarr m c) (warr m c) (m ((c : Thread nD τ).loc main_arg2))

/-- After the last point of a run the accumulator's entry `(p, q)` is the full sum over the 4096 contraction indices,
    for the row and column the point's tiles stand at: the four points' tile products are the sum's four quarters. -/
theorem full_sum (c : Dev nD) (t : Fin cfg0.N) (h3 : t.val % 4 = 3) (p q : Fin 1024) :
    (outsAt0 m c t.val t.isLt).2 (ix2 p q)
      = ∑ k : Fin 4096, xarr m c (ix2 (tileIdx (t.val / 16) p) k) * warr m c (ix2 k (tileIdx (t.val / 4) q)) := by
  have hN : cfg0.N = 64 := N_0
  have ht := t.isLt
  rw [accumulator_eq, zero_add, h3]
  refine sum_quarters (fun k => xarr m c (ix2 (tileIdx (t.val / 16) p) k) * warr m c (ix2 k (tileIdx (t.val / 4) q))) _
    (fun s hs => ?_)
  have hn : 4 * (t.val / 4) + s < cfg0.N := by omega
  unfold tileProduct
  rw [dif_pos hn]
  refine Finset.sum_congr rfl fun r _ => ?_
  show xblk m c ⟨4 * (t.val / 4) + s, hn⟩ (ix2 p r) * wblk m c ⟨4 * (t.val / 4) + s, hn⟩ (ix2 r q) = _
  rw [xblk_apply, wblk_apply]
  show xarr m c (ix2 (tileIdx ((4 * (t.val / 4) + s) / 16) p) (tileIdx (4 * (t.val / 4) + s) r))
      * warr m c (ix2 (tileIdx (4 * (t.val / 4) + s) r) (tileIdx ((4 * (t.val / 4) + s) / 4) q)) = _
  rw [tileIdx_congr (show (4 * (t.val / 4) + s) / 16 % 4 = t.val / 16 % 4 by omega) p,
    tileIdx_congr (show (4 * (t.val / 4) + s) % 4 = s % 4 by omega) r,
    tileIdx_congr (show (4 * (t.val / 4) + s) / 4 % 4 = t.val / 4 % 4 by omega) q]

/-- What the last point of a run leaves in the output tile: the closing step of the accumulator it has just updated. -/
theorem out_tile_eq (c : Dev nD) (t : Fin cfg0.N) (h0 : ¬t.val % 4 = 0) (h3 : t.val % 4 = 3) :
    (outsAt0 m c t.val t.isLt).1 = k0_pay3 ((outsAt0 m c t.val t.isLt).2) (bblk m c t) := by
  rw [outsAt0_C m c t h0 h3]
  dsimp only
  refine (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2).trans ?_
  rw [scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2]

/-- … which, entry by entry, is the layer at the row and column the tile stands at. -/
theorem out_tile_apply (c : Dev nD) (t : Fin cfg0.N) (h0 : ¬t.val % 4 = 0) (h3 : t.val % 4 = 3) (y : S1024x1024.Idx) :
    (outsAt0 m c t.val t.isLt).1 y = out m c (ix2 (tileIdx (t.val / 16) (y 0)) (tileIdx (t.val / 4) (y 1))) := by
  obtain ⟨p, q, rfl⟩ : ∃ (p q : Fin 1024), y = ix2 p q := ⟨y 0, y 1, eq_ix2 y⟩
  refine (congrFun (out_tile_eq m c t h0 h3) (ix2 p q)).trans ?_
  rw [close_apply, full_sum m c t h3 p q, bblk_apply, brow_apply]
  rfl

/-- WHAT A FLUSHING POINT WRITES BACK is its tile of the layer. -/
theorem flushed_eq (c : Dev nD) (t : Fin cfg0.N) (hf : (cfg0.win 3).flush t = true) :
    (dats m 0 c).flushed 3 t = ((cfg0.win 3).blk t).view.read (Elt Ideal) (out m c) := by
  have h3 : t.val % 4 = 3 := (flush0_3 t).mp hf
  have h0 : ¬t.val % 4 = 0 := by omega
  obtain ⟨-, -, -, -, -, -, e0, e1⟩ := tile_numbers t
  rw [flushed3]
  funext j
  show (outsAt0 m c t.val t.isLt).1 j = out m c (((cfg0.win 3).blk t).view.emb j)
  refine (out_tile_apply m c t h0 h3 j).trans ?_
  congr 1
  funext a
  apply Fin.ext
  match a with
  | ⟨0, _⟩ => show 1024 * (t.val / 16 % 4) + (j 0).val = win0_3.index t (0 : Fin 2) * 1024 + 1 * (j 0).val; rw [e0]; omega
  | ⟨1, _⟩ => show 1024 * (t.val / 4 % 4) + (j 1).val = win0_3.index t (1 : Fin 2) * 1024 + 1 * (j 1).val; rw [e1]; omega

/-- An entry of the result array lies in point `t`'s output tile iff each coordinate lies in the tile's range. -/
theorem mem_tile (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- THE RESULT ARRAY after the run is the layer: every entry lies in the tile some flushing point writes. -/
theorem final (c : Dev nD) : (dats m 0 c).arrAt 3 cfg0.N = out m c :=
  (dats m 0 c).arrAt_eq_of_cover 3 (out m c) (flushed_eq m c) fun i => by
    have hN : cfg0.N = 64 := N_0
    have hi0 : (i 0).val < 4096 := (i 0).isLt
    have hi1 : (i 1).val < 4096 := (i 1).isLt
    have hn : 16 * ((i 0).val / 1024) + 4 * ((i 1).val / 1024) + 3 < cfg0.N := by omega
    refine ⟨⟨16 * ((i 0).val / 1024) + 4 * ((i 1).val / 1024) + 3, hn⟩, (flush0_3 _).mpr (by dsimp only; omega), ?_⟩
    obtain ⟨-, -, -, -, -, -, e0, e1⟩ := tile_numbers ⟨16 * ((i 0).val / 1024) + 4 * ((i 1).val / 1024) + 3, hn⟩
    dsimp only at e0 e1
    rw [mem_tile]
    intro a
    match a with
    | ⟨0, _⟩ =>
      show win0_3.index ⟨16 * ((i 0).val / 1024) + 4 * ((i 1).val / 1024) + 3, hn⟩ (0 : Fin 2) * 1024 ≤ (i 0).val ∧ (i 0).val < win0_3.index ⟨16 * ((i 0).val / 1024) + 4 * ((i 1).val / 1024) + 3, hn⟩ (0 : Fin 2) * 1024 + 1024
      rw [e0]; omega
    | ⟨1, _⟩ =>
      show win0_3.index ⟨16 * ((i 0).val / 1024) + 4 * ((i 1).val / 1024) + 3, hn⟩ (1 : Fin 2) * 1024 ≤ (i 1).val ∧ (i 1).val < win0_3.index ⟨16 * ((i 0).val / 1024) + 4 * ((i 1).val / 1024) + 3, hn⟩ (1 : Fin 2) * 1024 + 1024
      rw [e1]; omega

/-- THE RUN, READ: every execution ends with the result array at the layer of the arguments as launched, the
    arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show layer (xarr m c) (warr m c) _ = _
      rw [xarr_eq, warr_eq])), (h c).2⟩)
    (run_blocks m ρ)

end Cert.KernelIdeal.Result

end
-- ==== Proof.Reference.lean ====
/-
  The reference computes the quantized linear layer: its 25 host operations, read one entry at a time.

  Entry `(i₀, i₁)` of the result is built from the matrix product's entry — the sum over all 4096 contraction indices
  `k` of `inputs[i₀, k] · w[k, i₁]` —, scaled by 256, rounded to even, divided by 256; the bias entry `b[i₁]` treated the
  same way and broadcast down the rows; the two added; and the sum scaled, rounded and divided once more. Over the
  extended reals the host's quotient and rounding are the same functions as the kernel's.
-/
import proofs.«181331_j2224793060101_1_alg».proof.Proof.Gen.ReferenceIdeal.Read
import proofs.«181331_j2224793060101_1_alg».proof.Proof.Quantize
import Idealize.ShloMosaic.Lib.ValueIdx
import Idealize.ShloMosaic.PureOps.Ideal.Laws

noncomputable section

open Idealize.ShloMosaic Idealize.ShloMosaic.TcCoe Idealize.SL.Sem

namespace Cert.ReferenceIdeal.Layer

open Cert.ReferenceIdeal Cert.ReferenceIdeal.Gen Cert.ReferenceIdeal.Read Idealize.ShloMosaic.ValueIdx Cert.QuantLinear

/-- The reference's result, as a function of its three arguments, is the layer. -/
theorem result_eq_layer (x0 x1 : (⟨S4096x4096, .f32⟩ : BufTy).Contents (Elt Ideal))
    (x2 : (⟨S4096, .f32⟩ : BufTy).Contents (Elt Ideal)) :
    val_main_v18 (F := Ideal) x0 x1 x2 = layer x0 x1 x2 := by
  funext i
  have el : ∀ k : Fin 4096, lidx_main_v0 i k = ix2 (i 0) k := fun k =>
    funext fun a => Fin.ext (by match a with | ⟨0, _⟩ => rfl | ⟨1, _⟩ => rfl)
  have er : ∀ k : Fin 4096, ridx_main_v0 i k = ix2 k (i 1) := fun k =>
    funext fun a => Fin.ext (by match a with | ⟨0, _⟩ => rfl | ⟨1, _⟩ => rfl)
  have eb : idx_main_v11 (idx_main_v12 i) = ix1 (i 1) :=
    funext fun a => Fin.ext (by match a with | ⟨0, _⟩ => rfl)
  simp only [val_main_v18_apply, val_main_v17_apply, val_main_cst_4_apply, val_main_v16_apply, val_main_v15_apply,
    val_main_v14_apply, val_main_cst_3_apply, val_main_v13_apply, val_main_v12_apply, val_main_v11_apply,
    val_main_v10_apply, val_main_v9_apply, val_main_cst_2_apply, val_main_v8_apply, val_main_v7_apply,
    val_main_v6_apply, val_main_cst_1_apply, val_main_v5_apply, val_main_v4_apply, val_main_cst_0_apply,
    val_main_v3_apply, val_main_v2_apply, val_main_v1_apply, val_main_cst_apply, val_main_v0_apply, el, er, eb]
  rfl

end Cert.ReferenceIdeal.Layer

end
-- ==== Proof.lean ====
/-
  A quantized linear layer, `out = rq (rq (inputs · w) + rq b)` with `rq v = round(v · 2⁸) / 2⁸` (ties to even), computed by
  a tiled kernel and by a plain reference, is the same function of `inputs`, `w` and `b` over the extended reals.

  The kernel walks a 4 × 4 × 4 grid: for each 1024 × 1024 tile of the output it visits the four contraction tiles in
  turn, accumulating the tile products `inputs_tile · w_tile` in a scratch tile that it zeroes at the first visit; at
  the fourth visit it quantizes the accumulator, adds the quantized bias tile, quantizes the sum, and writes the output
  tile back. The reference forms the whole 4096-term contraction at once and applies the same three quantizations with
  the same scale word.

  The proof, module by module:
    * Quantize — `rq`, the layer as one function of the three arrays, and the only law used: a sum over 4096 indices is
      the sum of its four consecutive quarters (addition of extended reals is commutative and associative; no entry
      needs to be finite);
    * Tile — the body's accumulation step and closing step read at one entry of a tile;
    * Cases — what one run of the body leaves in the accumulator and in the output tile, at a first, a middle and a last
      visit;
    * Blocks — which entries of the whole arrays a grid point's tiles hold;
    * Accumulator — the accumulator after each point as zero plus the tile products so far;
    * Result — at a last visit the accumulator is the full contraction, so the tile written is the layer's; the sixteen
      written tiles cover the result;
    * Reference — the reference's 25 host operations, read entry by entry, are the layer.
  The three frames are the generated ones (the reference's is its generated run with the result dropped), and the
  kernel's idealization rewrote nothing, so that claim is trivial.
-/
import proofs.«181331_j2224793060101_1_alg».proof.Defs
import proofs.«181331_j2224793060101_1_alg».proof.Proof.Gen.Kernel
import proofs.«181331_j2224793060101_1_alg».proof.Proof.Gen.Kernel.Skeleton
import proofs.«181331_j2224793060101_1_alg».proof.Proof.Gen.Kernel.Launch
import proofs.«181331_j2224793060101_1_alg».proof.Proof.Gen.Kernel.Points
import proofs.«181331_j2224793060101_1_alg».proof.Proof.Gen.Kernel.Frame
import proofs.«181331_j2224793060101_1_alg».proof.Proof.Gen.KernelIdeal
import proofs.«181331_j2224793060101_1_alg».proof.Proof.Gen.KernelIdeal.Skeleton
import proofs.«181331_j2224793060101_1_alg».proof.Proof.Gen.KernelIdeal.Launch
import proofs.«181331_j2224793060101_1_alg».proof.Proof.Gen.KernelIdeal.Points
import proofs.«181331_j2224793060101_1_alg».proof.Proof.Gen.KernelIdeal.Frame
import proofs.«181331_j2224793060101_1_alg».proof.Proof.Gen.ReferenceIdeal
import proofs.«181331_j2224793060101_1_alg».proof.Proof.Gen.Pre_finite_inputs
import proofs.«181331_j2224793060101_1_alg».proof.Proof.Gen.KernelIdeal.Value
import proofs.«181331_j2224793060101_1_alg».proof.Proof.Gen.ReferenceIdeal.Run
import proofs.«181331_j2224793060101_1_alg».proof.Proof.Gen.ReferenceIdeal.Read
import proofs.«181331_j2224793060101_1_alg».proof.Proof.Result
import proofs.«181331_j2224793060101_1_alg».proof.Proof.Reference
import Idealize.ShloMosaic.Adequacy
import Idealize.ShloMosaic.Init

noncomputable section

namespace Cert.Proof

open Idealize.ShloMosaic Idealize.ShloMosaic.TcCoe Idealize.SL.Sem Cert.QuantLinear

/-- The kernel as printed runs to the end without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Over the extended reals the kernel's result array and the reference's both end at the quantized linear layer of
    arguments that agree. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Layer.result_eq_layer, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
